-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S64 : Shape := ⟨1, ![64]⟩
abbrev S24x512x512 : Shape := ⟨3, ![24, 512, 512]⟩
abbrev S24x512 : Shape := ⟨2, ![24, 512]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S24x512x512 : S_.BroadcastsInDim S24x512x512 (![] : Fin 0 → Fin S24x512x512.rank)
  reducesTo_S24x512x512_S_d0_1_2 : S24x512x512.ReducesTo [0, 1, 2] S_
  bcast_S_S24x512 : S_.BroadcastsInDim S24x512 (![] : Fin 0 → Fin S24x512.rank)
  reducesTo_S24x512_S_d0_1 : S24x512.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S64 32) (main_v13 : IVec S_ 1) (main_v15 : IVec S64 1) (main_c_5 : IVec S_ 32) : IVec S_ 1 :=
  let main_v16 : IVec S64 32 := broadcastInDim S64 ![] bcast_S_S64 main_c_5
  let main_v17 : IVec S64 1 := cmpi .slt main_arg1 main_v16
  let main_v18 : IVec S64 1 := andi main_v15 main_v17
  let main_c_6 : IVec S_ 1 := constantI S_ 1 1#1
  let main_v19 : IVec S_ 1 := (fun x v => Host.reduce IntOp.andi x v reducesTo_S64_S_d0 h_S_) main_v18 main_c_6
  let main_v20 : IVec S_ 1 := andi main_v13 main_v19
  main_v20

def fn {F : FTy → Type} [FloatOps F] (main_arg0 : FVec F S64x1024x512 .f32) (main_arg1 : IVec S64 32) (main_arg2 : FVec F S24x512x512 .f32) (main_arg3 : FVec F S24x512 .f32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S24x512x512 .f32 := Host.absf main_arg2
  let main_cst_0 : FVec F S_ .f32 := constant S_ .f32 0x7F800000#32
  let main_v5 : FVec F S24x512x512 .f32 := broadcastInDim S24x512x512 ![] bcast_S_S24x512x512 main_cst_0
  let main_v6 : IVec S24x512x512 1 := cmpf .olt main_v4 main_v5
  let main_c_1 : IVec S_ 1 := constantI S_ 1 1#1
  let main_v7 : IVec S_ 1 := (fun x v => Host.reduce IntOp.andi x v reducesTo_S24x512x512_S_d0_1_2 h_S_) main_v6 main_c_1
  let main_v8 : IVec S_ 1 := andi main_v3 main_v7
  let main_v9 : FVec F S24x512 .f32 := Host.absf main_arg3
  let main_cst_2 : FVec F S_ .f32 := constant S_ .f32 0x7F800000#32
  let main_v10 : FVec F S24x512 .f32 := broadcastInDim S24x512 ![] bcast_S_S24x512 main_cst_2
  let main_v11 : IVec S24x512 1 := cmpf .olt main_v9 main_v10
  let main_c_3 : IVec S_ 1 := constantI S_ 1 1#1
  let main_v12 : IVec S_ 1 := (fun x v => Host.reduce IntOp.andi x v reducesTo_S24x512_S_d0_1 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg1 main_v14
  let main_c_5 : IVec S_ 32 := constantI S_ 32 24#32
  fn_part1 (F := F) main_arg1 main_v13 main_v15 main_c_5
-- ==== Kernel.lean ====
abbrev S64x1024x512 : Shape := ⟨3, ![64, 1024, 512]⟩
abbrev S64 : Shape := ⟨1, ![64]⟩
abbrev S24x512x512 : Shape := ⟨3, ![24, 512, 512]⟩
abbrev S24x512 : Shape := ⟨2, ![24, 512]⟩
abbrev S24x1x512 : Shape := ⟨3, ![24, 1, 512]⟩
abbrev S1x1024x512 : Shape := ⟨3, ![1, 1024, 512]⟩
abbrev S1x512x512 : Shape := ⟨3, ![1, 512, 512]⟩
abbrev S1 : Shape := ⟨1, ![1]⟩
abbrev S1x1x512 : Shape := ⟨3, ![1, 1, 512]⟩
abbrev S1024x512 : Shape := ⟨2, ![1024, 512]⟩
abbrev S512x512 : Shape := ⟨2, ![512, 512]⟩
abbrev S1x512 : Shape := ⟨2, ![1, 512]⟩

abbrev nBuf : Space → Nat
  | .hbm => 5
  | .vmem => 8
  | .smem => 1
  | _ => 0

abbrev bufTy : (tb : Table) → Fin (tcTables nBuf tb) → BufTy
  | .hbm, ⟨0, _⟩ => ⟨S64x1024x512, .f32⟩
  | .hbm, ⟨1, _⟩ => ⟨S24x512x512, .f32⟩
  | .hbm, ⟨2, _⟩ => ⟨S24x512, .f32⟩
  | .hbm, ⟨3, _⟩ => ⟨S24x1x512, .f32⟩
  | .hbm, ⟨4, _⟩ => ⟨S64x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x1024x512, .f32⟩
  | .local _ .vmem, ⟨7, _⟩ => ⟨S1x1024x512, .f32⟩
  | .local _ .smem, ⟨0, _⟩ => ⟨S64, .i32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S24x512_S24x1x512 : S24x512.ShapeCasts S24x1x512
  numel1_S1 : S1.numel = 1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  shapeCasts_S1024x512_S1x1024x512 : S1024x512.ShapeCasts S1x1024x512
  dot_S1024x512_S512x512_S1024x512_1_0_0_1_n_n_wf : DotDims.WF S1024x512 S512x512 S1024x512 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S64x1024x512.size a
  hwx0_0 : ∀ i : grid0.Coords, EltTy.bits .f32 = 32 ∨ (Rect.block (s := S64x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S64x1024x512.size a
  hwx0_3 : ∀ i : grid0.Coords, EltTy.bits .f32 = 32 ∨ (Rect.block (s := S64x1024x512) S1x1024x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev spec0_0 : Pipeline.WinSpec sig grid0.rank :=
  Pipeline.WinSpec.ofSpec (Memref.whole main_arg0) S1x1024x512.size reads0_0 false false 2 stage0_0 sem0_0 nbuf0_0 hstage0_0

abbrev spec0_1 : Pipeline.WinSpec sig grid0.rank :=
  Pipeline.WinSpec.ofSpec (Memref.whole main_arg2) S1x512x512.size reads0_1 false false 2 stage0_1 sem0_1 nbuf0_1 hstage0_1

abbrev spec0_2 : Pipeline.WinSpec sig grid0.rank :=
  Pipeline.WinSpec.ofSpec (Memref.whole main_v0) S1x1x512.size reads0_2 false false 2 stage0_2 sem0_2 nbuf0_2 hstage0_2

abbrev spec0_3 : Pipeline.WinSpec sig grid0.rank :=
  Pipeline.WinSpec.ofSpec (Memref.whole main_v1) S1x1024x512.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x512x512.size a ≤ S24x512x512.size a), EltTy.bits .f32 = 32 ∨ (Rect.block (s := S24x512x512) S1x512x512.size (cc0_transform_1 k0_off1_inb numel1_S1 pf i) h).WholeWords (EltTy.packing .f32)) ∧
  (∀ i : grid0.Coords, ∃ h : (∀ a, (cc0_transform_2 k0_off1_inb numel1_S1 pf i a + 1) * S1x1x512.size a ≤ S24x1x512.size a), EltTy.bits .f32 = 32 ∨ (Rect.block (s := S24x1x512) S1x1x512.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x1024x512 : Shape := ⟨3, ![64, 1024, 512]⟩
abbrev S64 : Shape := ⟨1, ![64]⟩
abbrev S24x512x512 : Shape := ⟨3, ![24, 512, 512]⟩
abbrev S24x512 : Shape := ⟨2, ![24, 512]⟩
abbrev S_ : Shape := ⟨0, ![]⟩
abbrev S64x1 : Shape := ⟨2, ![64, 1]⟩
abbrev S64x512x512 : Shape := ⟨3, ![64, 512, 512]⟩
abbrev S64x512 : Shape := ⟨2, ![64, 512]⟩
abbrev S64x1x512 : Shape := ⟨3, ![64, 1, 512]⟩

abbrev nBuf : Space → Nat
  | .hbm => 31
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S64, .i32⟩
  | .hbm, ⟨2, _⟩ => ⟨S24x512x512, .f32⟩
  | .hbm, ⟨3, _⟩ => ⟨S24x512, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S64x512x512, .f32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x512, .f32⟩
  | .hbm, ⟨22, _⟩ => ⟨S64x1x512, .f32⟩
  | .hbm, ⟨23, _⟩ => ⟨S64x1024x512, .f32⟩
  | .hbm, ⟨24, _⟩ => ⟨S64x1024x512, .f32⟩
  | .hbm, ⟨25, _⟩ => ⟨S64x1024x512, .f32⟩
  | .hbm, ⟨26, _⟩ => ⟨S64x1024x512, .f32⟩
  | .hbm, ⟨27, _⟩ => ⟨S_, .f32⟩
  | .hbm, ⟨28, _⟩ => ⟨S64x1024x512, .f32⟩
  | .hbm, ⟨29, _⟩ => ⟨S64x1024x512, .f32⟩
  | .hbm, ⟨30, _⟩ => ⟨S64x1024x512, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x512_S64x1x512_0_2 : S64x512.BroadcastsInDim S64x1x512 (![0, 2] : Fin 2 → Fin S64x1x512.rank)
  bcast_S64x1x512_S64x1024x512_0_1_2 : S64x1x512.BroadcastsInDim S64x1024x512 (![0, 1, 2] : Fin 3 → Fin S64x1024x512.rank)
  bcast_S_S64x1024x512 : S_.BroadcastsInDim S64x1024x512 (![] : Fin 0 → Fin S64x1024x512.rank)
  gather_S24x512x512_S64x1_S64x512x512_12_0_n_n_0_1_1512512_wf : GatherDims.WF S24x512x512 S64x1 S64x512x512 [1, 2] [0] [] [0] [] 1 ![1, 512, 512]
  gather_S24x512_S64x1_S64x512_1_0_n_n_0_1_1512_wf : GatherDims.WF S24x512 S64x1 S64x512 [1] [0] [] [0] [] 1 ![1, 512]
  dot_S64x1024x512_S64x512x512_S64x1024x512_2_1_1_2_0_0_wf : DotDims.WF S64x1024x512 S64x512x512 S64x1024x512 [2] [1] [1] [2] [0] [0]

variable [Facts₀]

def gather_S24x512x512_S64x1_S64x512x512_12_0_n_n_0_1_1512512 : GatherDims S24x512x512 S64x1 S64x512x512 where
  offsetDims := [1, 2]
  collapsedSliceDims := [0]
  operandBatchingDims := []
  startIndicesBatchingDims := []
  startIndexMap := [0]
  indexVectorDim := 1
  sliceSizes := ![1, 512, 512]
  wf := gather_S24x512x512_S64x1_S64x512x512_12_0_n_n_0_1_1512512_wf
def gather_S24x512_S64x1_S64x512_1_0_n_n_0_1_1512 : GatherDims S24x512 S64x1 S64x512 where
  offsetDims := [1]
  collapsedSliceDims := [0]
  operandBatchingDims := []
  startIndicesBatchingDims := []
  startIndexMap := [0]
  indexVectorDim := 1
  sliceSizes := ![1, 512]
  wf := gather_S24x512_S64x1_S64x512_1_0_n_n_0_1_1512_wf
def dot_S64x1024x512_S64x512x512_S64x1024x512_2_1_1_2_0_0 : DotDims S64x1024x512 S64x512x512 S64x1024x512 where
  lhsContracting := [2]
  rhsContracting := [1]
  lhsNonContracting := [1]
  rhsNonContracting := [2]
  lhsBatch := [0]
  rhsBatch := [0]
  wf := dot_S64x1024x512_S64x512x512_S64x1024x512_2_1_1_2_0_0_wf

class Facts : Prop extends Facts₀ where

variable [Facts]
-- ==== Proof.DaySpec.lean ====
/-
  A day adapter: sample p of a batch of 64 carries a day id d(p) in [0, 24); its 1024 rows of 512 features are
  multiplied by that day's 512 x 512 weight matrix, the day's bias row is added, and softsign is applied:

      y(p, r, e) = (sum over k of x(p, r, k) * W(d(p), k, e)) + b(d(p), e),      out(p, r, e) = y / (1 + |y|).

  Over the extended reals every step is the textbook one, so the result is ONE function of the four argument
  arrays, stated here index by index. The day id is a 32-bit word; read signed it must lie in [0, 24), and then
  its signed and unsigned readings agree, a negative-index wrap leaves it alone, and a clamp into [0, 23] leaves
  it alone.
-/
import Idealize.ShloMosaic.PureOps.Ideal
import Idealize.ShloMosaic.Lib.ValueIdx
import Idealize.ShloMosaic.Lib.Affine

noncomputable section

open scoped BigOperators

namespace Cert.DayAdapter

open Idealize.ShloMosaic Idealize.ShloMosaic.ValueIdx

/-! ## Day words -/

/-- A 32-bit word names a day when, read signed, it lies in [0, 24). -/
def IsDay (w : BitVec 32) : Prop := IntOp.cmpi .sge w 0#32 = 1#1 ∧ IntOp.cmpi .slt w 24#32 = 1#1

variable {w : BitVec 32}

/-- The signed reading of a day word is in [0, 24). -/
theorem IsDay.bounds (h : IsDay w) : 0 ≤ w.toInt ∧ w.toInt < 24 := by
  obtain ⟨h0, h1⟩ := h
  rw [IntOp.cmpi_sge] at h0
  rw [IntOp.cmpi_slt] at h1
  have e0 : (0#32 : BitVec 32).toInt = 0 := by decide
  have e1 : (24#32 : BitVec 32).toInt = 24 := by decide
  omega

/-- A day word reads the same signed and unsigned. -/
theorem IsDay.toInt_eq (h : IsDay w) : w.toInt = (w.toNat : Int) := by
  have hb := h.bounds
  have h32 := w.isLt
  rw [BitVec.toInt_eq_toNat_cond] at hb ⊢
  by_cases hc : 2 * w.toNat < 2 ^ 32
  · rw [if_pos hc]
  · rw [if_neg hc] at hb; omega

/-- Unsigned, a day word is below 24. -/
theorem IsDay.toNat_lt (h : IsDay w) : w.toNat < 24 := by
  have hb := h.bounds
  rw [h.toInt_eq] at hb
  omega

theorem IsDay.toInt_toNat (h : IsDay w) : w.toInt.toNat = w.toNat := by
  rw [h.toInt_eq]; exact Int.toNat_natCast _

/-- A day word is not negative, so the wrap of a negative index (add 24 when below 0) leaves it. -/
theorem IsDay.wrap (h : IsDay w) (a : BitVec 32) : Scalar.select (IntOp.cmpi .slt w 0#32) a w = w := by
  refine if_neg fun hn => ?_
  have hn' : IntOp.cmpi .slt w 0#32 = 1#1 := hn
  rw [IntOp.cmpi_slt] at hn'
  have e0 : (0#32 : BitVec 32).toInt = 0 := by decide
  have := h.bounds
  omega

/-! ## The result as one function of the arrays -/

variable (x : (⟨3, ![64, 1024, 512]⟩ : Shape).Idx → EReal) (ids : IVec ⟨1, ![64]⟩ 32)
  (W : (⟨3, ![24, 512, 512]⟩ : Shape).Idx → EReal) (b : (⟨2, ![24, 512]⟩ : Shape).Idx → EReal)

/-- The day of sample p: its word read unsigned, clamped into [0, 23] (the word itself when it names a day). -/
def day (p : Fin 64) : Fin 24 := ⟨min (ids (ix1 p)).toNat 23, by omega⟩

theorem day_val {p : Fin 64} (h : IsDay (ids (ix1 p))) : (day ids p).val = (ids (ix1 p)).toNat := by
  have := h.toNat_lt
  show min _ 23 = _
  omega

/-- The affine part: row r of sample p against column e of its day's weights, plus the day's bias at e. -/
def affine (p : Fin 64) (r : Fin 1024) (e : Fin 512) : EReal :=
  (∑ k : Fin 512, x (ix3 p r k) * W (ix3 (day ids p) k e)) + b (ix2 (day ids p) e)

/-- Softsign on the extended reals: y / (1 + |y|), with |y| = max y (-y) and 1 the f32 word 0x3F800000. -/
def softsign (y : EReal) : EReal := Ideal.div y (Ideal.ofBits .f32 0x3F800000#32 + max y (-y))

/-- THE RESULT: softsign of the affine part, at every (p, r, e). -/
def result : (⟨3, ![64, 1024, 512]⟩ : Shape).Idx → EReal :=
  fun j => softsign (affine x ids W b (j 0) (j 1) (j 2))

theorem result_apply (p : Fin 64) (r : Fin 1024) (e : Fin 512) :
    result x ids W b (ix3 p r e) = softsign (affine x ids W b p r e) := rfl

end Cert.DayAdapter

end
-- ==== Proof.PreDays.lean ====
/-
  The precondition, read back at the day ids. It is a conjunction whose last conjunct is an "all" over the 64 words
  of day_ids of (0 <= word, signed) and (word < 24, signed). A conjunction of bits that is 1 has every conjunct 1; an
  and-reduction over the whole vector that is 1 met a 1 at every position. So under the precondition every word of
  day_ids names a day. Nothing here depends on what a float is: the finiteness conjuncts are not opened.
-/
import proofs.«430786_j71622874628159_1_alg».proof.Pre_finite_inputs
import proofs.«430786_j71622874628159_1_alg».proof.Proof.DaySpec
import Idealize.ShloMosaic.Lib.ReduceAll

noncomputable section

namespace Cert.DayAdapter

open Idealize.ShloMosaic Idealize.ShloMosaic.ValueIdx Cert.Pre_finite_inputs

/-- The scalar shape has one index. -/
instance subsingleton_scalar_idx : Subsingleton S_.Idx := ⟨fun a b => funext fun d => d.elim0⟩

/-- Under the precondition, at any float instance, every word of the day-id vector is a day: signed, in [0, 24). -/
theorem days_of_pre {F : FTy → Type} [FloatOps F] [Cert.Pre_finite_inputs.Facts]
    (a0 : FVec F S64x1024x512 .f32) (a1 : IVec S64 32) (a2 : FVec F S24x512x512 .f32) (a3 : FVec F S24x512 .f32)
    (h : Cert.Pre_finite_inputs.fn (F := F) a0 a1 a2 a3 = fun _ => 1#1) (p : Fin 64) : IsDay (a1 (ix1 p)) := by
  have e := congrFun h ix0
  unfold Cert.Pre_finite_inputs.fn Cert.Pre_finite_inputs.fn_part1 at e
  dsimp only at e
  have e2 := (IntOp.andi_eq_one.1 e).2
  have e3 := Host.reduce_andi_all _ _ _ _ ix0 e2 (ix1 p)
  exact IntOp.andi_eq_one.1 e3

end Cert.DayAdapter

end
-- ==== Proof.OkBits.lean ====
/-
  The pipeline's side condition from the precondition. Two windows of the call are indexed through the table of
  day ids: at grid point i the weights' block is (ids[i], 0, 0) of the [24, 512, 512] array and the bias' block is
  (ids[i], 0, 0) of the [24, 1, 512] array, the id read as an unsigned word. Each block lies inside its array
  exactly when that word is below 24, which is what the precondition says of every id; the transfers are of
  32-bit elements, so their ends are whole words.
-/
import proofs.«430786_j71622874628159_1_alg».proof.Defs
import proofs.«430786_j71622874628159_1_alg».proof.Proof.Gen.Kernel.Frame
import proofs.«430786_j71622874628159_1_alg».proof.Proof.PreDays

set_option maxRecDepth 16384

noncomputable section

namespace Cert.Kernel.Days

open Cert.Kernel Cert.Kernel.Gen Cert.DayAdapter
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The table of day ids the region reads is the day-id argument as launched. -/
theorem tbl_eq : tbl m 0 = m (((0 : Dev nD) : Thread nD τ).loc main_arg1) := V_main_arg1 m 0

/-- When every id names a day, both table-indexed blocks are inside their arrays at every grid point. -/
theorem ok_of_days (hd : ∀ p : Fin 64, IsDay (tbl m 0 (ix1 p))) : Ok m := by
  have hl : ∀ x : S64.Idx, (tbl m 0 x).toNat < 24 := fun x => by rw [eq_ix1 x]; exact (hd _).toNat_lt
  show ok0 (F := F) (tbl m)
  unfold ok0
  refine ⟨fun i => ?_, fun i => ?_⟩
  · obtain ⟨w, hw, e⟩ : ∃ w : BitVec 32, w.toNat < 24 ∧ cc0_transform_1 (F := F) Facts₀.k0_off1_inb Facts₀.numel1_S1 (tbl m) i = ![w.toNat, 0, 0] :=
      ⟨_, hl _, rfl⟩
    refine ⟨fun a => ?_, Or.inl rfl⟩
    rw [e]
    fin_cases a <;> simp [S1x512x512, S24x512x512] <;> omega
  · obtain ⟨w, hw, e⟩ : ∃ w : BitVec 32, w.toNat < 24 ∧ cc0_transform_2 (F := F) Facts₀.k0_off1_inb Facts₀.numel1_S1 (tbl m) i = ![w.toNat, 0, 0] :=
      ⟨_, hl _, rfl⟩
    refine ⟨fun a => ?_, Or.inl rfl⟩
    rw [e]
    fin_cases a <;> simp [S1x1x512, S24x1x512] <;> omega

end Cert.Kernel.Days

namespace Cert.Kernel.Days

open Cert.Kernel Cert.Kernel.Gen Cert.DayAdapter
open Idealize.ShloMosaic Idealize.ShloMosaic.TcCoe Idealize.ShloMosaic.ValueIdx Idealize.SL.Sem

variable [Cert.Pre_finite_inputs.Facts] (m : (ℓ : Loc nD τ sig) → Buf (Elt Bits) ℓ)

/-- Under the precondition every word of the table names a day, -/
theorem days_of_pre_tbl (h : Cert.Pre_Kernel m) (p : Fin 64) : IsDay (tbl m 0 (ix1 p)) := by
  rw [tbl_eq]
  exact days_of_pre _ _ _ _ (h 0) p

/-- so the pipeline's side condition holds. -/
theorem ok_of_pre (h : Cert.Pre_Kernel m) : Ok m := ok_of_days m (days_of_pre_tbl m h)

end Cert.Kernel.Days

end
-- ==== Proof.OkIdeal.lean ====
/-
  The pipeline's side condition from the precondition. Two windows of the call are indexed through the table of
  day ids: at grid point i the weights' block is (ids[i], 0, 0) of the [24, 512, 512] array and the bias' block is
  (ids[i], 0, 0) of the [24, 1, 512] array, the id read as an unsigned word. Each block lies inside its array
  exactly when that word is below 24, which is what the precondition says of every id; the transfers are of
  32-bit elements, so their ends are whole words.
-/
import proofs.«430786_j71622874628159_1_alg».proof.Defs
import proofs.«430786_j71622874628159_1_alg».proof.Proof.Gen.KernelIdeal.Frame
import proofs.«430786_j71622874628159_1_alg».proof.Proof.PreDays

set_option maxRecDepth 16384

noncomputable section

namespace Cert.KernelIdeal.Days

open Cert.KernelIdeal Cert.KernelIdeal.Gen Cert.DayAdapter
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The table of day ids the region reads is the day-id argument as launched. -/
theorem tbl_eq : tbl m 0 = m (((0 : Dev nD) : Thread nD τ).loc main_arg1) := V_main_arg1 m 0

/-- When every id names a day, both table-indexed blocks are inside their arrays at every grid point. -/
theorem ok_of_days (hd : ∀ p : Fin 64, IsDay (tbl m 0 (ix1 p))) : Ok m := by
  have hl : ∀ x : S64.Idx, (tbl m 0 x).toNat < 24 := fun x => by rw [eq_ix1 x]; exact (hd _).toNat_lt
  show ok0 (F := F) (tbl m)
  unfold ok0
  refine ⟨fun i => ?_, fun i => ?_⟩
  · obtain ⟨w, hw, e⟩ : ∃ w : BitVec 32, w.toNat < 24 ∧ cc0_transform_1 (F := F) Facts₀.k0_off1_inb Facts₀.numel1_S1 (tbl m) i = ![w.toNat, 0, 0] :=
      ⟨_, hl _, rfl⟩
    refine ⟨fun a => ?_, Or.inl rfl⟩
    rw [e]
    fin_cases a <;> simp [S1x512x512, S24x512x512] <;> omega
  · obtain ⟨w, hw, e⟩ : ∃ w : BitVec 32, w.toNat < 24 ∧ cc0_transform_2 (F := F) Facts₀.k0_off1_inb Facts₀.numel1_S1 (tbl m) i = ![w.toNat, 0, 0] :=
      ⟨_, hl _, rfl⟩
    refine ⟨fun a => ?_, Or.inl rfl⟩
    rw [e]
    fin_cases a <;> simp [S1x1x512, S24x1x512] <;> omega

end Cert.KernelIdeal.Days

namespace Cert.KernelIdeal.Days

open Cert.KernelIdeal Cert.KernelIdeal.Gen Cert.DayAdapter
open Idealize.ShloMosaic Idealize.ShloMosaic.TcCoe Idealize.ShloMosaic.ValueIdx Idealize.SL.Sem

variable [Cert.Pre_finite_inputs.Facts] (m : (ℓ : Loc nD τ sig) → Buf (Elt Ideal) ℓ)

/-- Under the precondition every word of the table names a day, -/
theorem days_of_pre_tbl (h : Cert.Pre_KernelIdeal m) (p : Fin 64) : IsDay (tbl m 0 (ix1 p)) := by
  rw [tbl_eq]
  exact days_of_pre _ _ _ _ (h 0) p

/-- so the pipeline's side condition holds. -/
theorem ok_of_pre (h : Cert.Pre_KernelIdeal m) : Ok m := ok_of_days m (days_of_pre_tbl m h)

end Cert.KernelIdeal.Days

end
-- ==== Proof.KernelBlock.lean ====
/-
  What one grid point leaves in the output's staging block. The body loads its three input blocks whole (the
  sample's rows, its day's weights, its day's bias row), computes one value of the block's shape from them, and
  stores it over the whole block. A block covered by one whole store holds that store's value, and a whole load of
  a block reads the block; so the output block after the body is the body's value of the three input blocks. This
  holds whatever a float is.
-/
import proofs.«430786_j71622874628159_1_alg».proof.Proof.Gen.KernelIdeal.Frame
import Idealize.ShloMosaic.Lib.Pipeline.Value

set_option maxRecDepth 16384

noncomputable section

namespace Cert.KernelIdeal.DayValue

open Cert.KernelIdeal Cert.KernelIdeal.Gen
open Idealize.ShloMosaic Idealize.ShloMosaic.TcCoe Idealize.ShloMosaic.Tactic Idealize.SL.Sem

variable {F : FTy → Type} [FloatOps F]

/-- Offset zero on each of three axes. -/
theorem off_zero3 : (![0, 0, 0] : Fin 3 → Nat) = fun _ => 0 := funext fun a => by fin_cases a <;> rfl

/-- The output block after the body, on any staging memrefs holding the blocks x0, x1, x2: the body's value of them. -/
theorem out_eq (c : Dev nD) (i : grid0.Coords) (arg2 : Memref sig .tc .vmem S1x1024x512 .f32) (harg2 : arg2.IsWhole) (arg3 : Memref sig .tc .vmem S1x512x512 .f32) (harg3 : arg3.IsWhole) (arg4 : Memref sig .tc .vmem S1x1x512 .f32) (harg4 : arg4.IsWhole) (arg5 : Memref sig .tc .vmem S1x1024x512 .f32) (harg5 : arg5.IsWhole)
    (x0 : Vec F S1x1024x512 .f32) (x1 : Vec F S1x512x512 .f32) (x2 : Vec F S1x1x512 .f32) (xt0 : TbBuf0 (F := F) c tbM0_0) :
    out0_A_3 c i arg2 harg2 arg3 harg3 arg4 harg4 arg5 harg5 x0 x1 x2 xt0 = k0_pay1 x0 x1 x2 := by
  unfold out0_A_3
  rw [View.read_writes_eq_canon _ _ _ (cover0_A_3 c i arg2 harg2 arg3 harg3 arg4 harg4 arg5 harg5 x0 x1 x2 xt0)]
  unfold kernelRun0_A
  dsimp only
  sl_unfold_words
  rw [View.canon_unit_zero off_zero3]
  simp only [View.readAt_eq_ld, Memref.IsWhole.read_unread, View.ld_unit_zero (S := S1x1024x512) off_zero3,
    View.ld_unit_zero (S := S1x512x512) off_zero3, View.ld_unit_zero (S := S1x1x512) off_zero3]

end Cert.KernelIdeal.DayValue

end
-- ==== Proof.KernelPay.lean ====
/-
  The body's value at an index, over the extended reals. The body drops the leading unit axis of its three blocks,
  multiplies the [1024, 512] rows by the [512, 512] weights on the matrix unit into a zero accumulator, adds the
  bias row down the rows, and applies y / (1 + |y|) pointwise; the changes of float format are the identity here.
  A product into a zero accumulator is the plain sum over the contracted axis: element (r, e) is the sum over the
  512 features k of rows(r, k) * weights(k, e). So at (r, e) the value is softsign of that sum plus bias(e).
-/
import proofs.«430786_j71622874628159_1_alg».proof.Proof.Gen.KernelIdeal.Skeleton
import proofs.«430786_j71622874628159_1_alg».proof.Proof.DaySpec
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Cert.DayAdapter
open Idealize.ShloMosaic Idealize.ShloMosaic.ValueIdx

/-! ## The product's operand indices, axis by axis: left (row, feature), right (feature, column) -/

theorem lhs_mm_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_mm_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_mm_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_mm_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product into a zero accumulator at (r, e): the sum over the features. -/
theorem mm_apply (l : FVec Ideal S1024x512 .bf16) (rr : FVec Ideal S512x512 .bf16) (r : Fin 1024) (e : Fin 512) :
    matmul dot_S1024x512_S512x512_S1024x512_1_0_0_1_n_n none l rr (constant S1024x512 .f32 0x00000000#32) (ix2 r e)
      = ∑ k : Fin 512, l (ix2 r k) * rr (ix2 k e) := by
  show FloatOps.matmul dot_S1024x512_S512x512_S1024x512_1_0_0_1_n_n none l rr (constant S1024x512 .f32 0x00000000#32) (ix2 r e) = _
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r e) ((contrEquiv1 dot_S1024x512_S512x512_S1024x512_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S1024x512_S512x512_S1024x512_1_0_0_1_n_n.rhsIdx (ix2 r e) ((contrEquiv1 dot_S1024x512_S512x512_S1024x512_1_0_0_1_n_n 512 rfl rfl).symm k) = ix2 k e := funext fun a => Fin.ext (by
    match a with
    | ⟨0, _⟩ => exact (rhs_mm_0 _ _).trans hk
    | ⟨1, _⟩ => exact rhs_mm_1 _ _)
  rw [el, er]

/-- Dropping the rows block's leading unit axis. -/
theorem rows_x (x0 : Vec Ideal S1x1024x512 .f32) (r : Fin 1024) (k : Fin 512) :
    shapeCast S1024x512 x0 Facts₀.shapeCasts_S1x1024x512_S1024x512 (ix2 r k) = x0 (ix3 (0 : Fin 1) r k) := by
  rw [shapeCast_dropUnit_apply ![1024, 512]]
  refine congrArg x0 (funext fun a => ?_)
  match a with | ⟨0, _⟩ => rfl | ⟨1, _⟩ => rfl | ⟨2, _⟩ => rfl

/-- Dropping the weights block's leading unit axis. -/
theorem rows_w (x1 : Vec Ideal S1x512x512 .f32) (k : Fin 512) (e : Fin 512) :
    shapeCast S512x512 x1 Facts₀.shapeCasts_S1x512x512_S512x512 (ix2 k e) = x1 (ix3 (0 : Fin 1) k e) := by
  rw [shapeCast_dropUnit_apply ![512, 512]]
  refine congrArg x1 (funext fun a => ?_)
  match a with | ⟨0, _⟩ => rfl | ⟨1, _⟩ => rfl | ⟨2, _⟩ => rfl

/-- The bias block, its unit axes dropped, laid down the 1024 rows: at (r, e) it is the bias at e. -/
theorem row_b (x2 : Vec Ideal S1x1x512 .f32) (r : Fin 1024) (e : Fin 512) :
    broadcastTo S1024x512 (shapeCast S1x512 x2 Facts₀.shapeCasts_S1x1x512_S1x512) Facts₀.broadcasts_S1x512_S1024x512 (ix2 r e)
      = x2 (ix3 (0 : Fin 1) (0 : Fin 1) e) := by
  rw [broadcastTo_apply _ _ (ix2 r e) (ix2 (0 : Fin 1) e) (fun a => by
    match a with
    | ⟨0, _⟩ => show (0 : Nat) = if (1 : Nat) = 1 then 0 else _; rw [if_pos rfl]
    | ⟨1, _⟩ => show e.val = if (512 : Nat) = 1 then 0 else e.val; rw [if_neg (by decide)])]
  rw [shapeCast_dropUnit_apply ![1, 512]]
  refine congrArg x2 (funext fun a => ?_)
  match a with | ⟨0, _⟩ => rfl | ⟨1, _⟩ => rfl | ⟨2, _⟩ => rfl

/-- The absolute value read at an index. -/
theorem absf_at {s : Shape} {φ : FTy} (a : FVec Ideal s φ) (i : s.Idx) : absf a i = max (a i) (-(a i)) := rfl

/-- THE BODY'S VALUE AT (r, e): softsign of (rows · weights)(r, e) + bias(e). -/
theorem pay_apply (x0 : Vec Ideal S1x1024x512 .f32) (x1 : Vec Ideal S1x512x512 .f32) (x2 : Vec Ideal S1x1x512 .f32)
    (z : Fin 1) (r : Fin 1024) (e : Fin 512) :
    k0_pay1 x0 x1 x2 (ix3 z r e)
      = softsign ((∑ k : Fin 512, x0 (ix3 (0 : Fin 1) r k) * x1 (ix3 (0 : Fin 1) k e)) + x2 (ix3 (0 : Fin 1) (0 : Fin 1) e)) := by
  unfold k0_pay1
  rw [shapeCast_addUnit_apply ![1024, 512]]
  have hj : (fun a : Fin 2 => (ix3 z r e : S1x1024x512.Idx) a.succ) = ix2 r e := funext fun a => by
    match a with | ⟨0, _⟩ => rfl | ⟨1, _⟩ => rfl
  rw [hj]
  simp only [divf_apply, addf_apply, absf_at, broadcast_apply, mm_apply, truncf_apply]
  refine Eq.trans ?_ (congrArg softsign (congrArg₂ (· + ·)
    (Finset.sum_congr rfl fun k _ => congrArg₂ (· * ·) (rows_x x0 r k) (rows_w x1 k e)) (row_b x2 r e)))
  rfl

end Cert.KernelIdeal.Pay

end
-- ==== Proof.KernelValue.lean ====
/-
  The array the kernel leaves. Grid point t is sample t. Its three input blocks are read off the arrays where the
  windows' index maps say: the sample's rows at (t, ·, ·) of x, the weights at (d, ·, ·) of W and the bias at
  (d, 0, ·) of b laid out as [24, 1, 512], d the table word ids[t] read unsigned, which is the sample's day when the
  word names a day. The output block of point t is block (t, ·, ·) of the result array, the 64 blocks tile it, and
  the block holds the body's value of the three input blocks, which index by index is `result`. So the result array
  ends holding `result` of the four argument arrays.
-/
import proofs.«430786_j71622874628159_1_alg».proof.Proof.KernelBlock
import proofs.«430786_j71622874628159_1_alg».proof.Proof.KernelPay
import proofs.«430786_j71622874628159_1_alg».proof.Proof.OkIdeal

set_option maxRecDepth 16384

noncomputable section

open scoped BigOperators

namespace Cert.KernelIdeal.DayValue

open Cert.KernelIdeal Cert.KernelIdeal.Gen Cert.KernelIdeal.Pay Cert.KernelIdeal.Days Cert.DayAdapter
open Idealize.ShloMosaic Idealize.ShloMosaic.TcCoe Idealize.ShloMosaic.ValueIdx Idealize.SL.Sem
open Idealize.ShloMosaic.Pipeline (Dat)

/-! ## The index maps at a grid point -/

section Maps
variable {F : FTy → Type} [FloatOps F]

theorem coord_lt (i : grid0.Coords) : (i 0).val < 64 := (i 0).isLt

/-- A grid coordinate as a 32-bit word and back. -/
theorem word_of_coord (i : grid0.Coords) : (BitVec.ofNat 32 (i 0).val).toNat = (i 0).val := by
  rw [BitVec.toNat_ofNat]
  exact Nat.mod_eq_of_lt (by have := coord_lt i; omega)

/-- The rows' and the result's windows are at block (i, 0, 0). -/
theorem map0 (i : grid0.Coords) : cc0_transform_0 i = ![(i 0).val, 0, 0] := by
  show ![(BitVec.ofNat 32 (i 0).val).toNat, (0#32 : BitVec 32).toNat, (0#32 : BitVec 32).toNat] = _
  rw [word_of_coord]
  rfl

theorem map3 (i : grid0.Coords) : cc0_transform_3 i = ![(i 0).val, 0, 0] := by
  show ![(BitVec.ofNat 32 (i 0).val).toNat, (0#32 : BitVec 32).toNat, (0#32 : BitVec 32).toNat] = _
  rw [word_of_coord]
  rfl

/-- The sample of a grid point. -/
def smp (i : grid0.Coords) : Fin 64 := ⟨(i 0).val, coord_lt i⟩

/-- The table entry an index map loads at a grid point is the sample's. -/
theorem tbl_idx (i : grid0.Coords) (inb : ∀ a, (![(Scalar.indexCast (BitVec.ofNat 32 (i 0).val)).toNat] : Fin 1 → Nat) a + S1.size a ≤ S64.size a) (h1 : 0 < S1.numel) :
    (Rect.unit (s := S64) ![(Scalar.indexCast (BitVec.ofNat 32 (i 0).val)).toNat] S1.size inb).emb (Shape.Idx.first h1) = ix1 (smp i) := by
  funext a
  apply Fin.ext
  match a with
  | ⟨0, _⟩ =>
    show (Scalar.indexCast (BitVec.ofNat 32 (i 0).val)).toNat + 1 * 0 = (i 0).val
    have : (Scalar.indexCast (BitVec.ofNat 32 (i 0).val)).toNat = (BitVec.ofNat 32 (i 0).val).toNat := rfl
    rw [this, word_of_coord]; omega

/-- The weights' and the bias' windows are at block (ids[i], 0, 0), the word read unsigned. -/
theorem map1 (pf : pre0.Contents (Elt F)) (i : grid0.Coords) :
    cc0_transform_1 (F := F) Facts₀.k0_off1_inb Facts₀.numel1_S1 pf i = ![(pf 0 (ix1 (smp i))).toNat, 0, 0] :=
  congrArg (fun x : S64.Idx => (![(pf 0 x).toNat, 0, 0] : Fin 3 → Nat))
    (tbl_idx i (Facts₀.k0_off1_inb i) (Facts₀.numel1_S1.symm ▸ Nat.one_pos))

theorem map2 (pf : pre0.Contents (Elt F)) (i : grid0.Coords) :
    cc0_transform_2 (F := F) Facts₀.k0_off1_inb Facts₀.numel1_S1 pf i = ![(pf 0 (ix1 (smp i))).toNat, 0, 0] :=
  congrArg (fun x : S64.Idx => (![(pf 0 x).toNat, 0, 0] : Fin 3 → Nat))
    (tbl_idx i (Facts₀.k0_off1_inb i) (Facts₀.numel1_S1.symm ▸ Nat.one_pos))

end Maps

variable (m : (ℓ : Loc nD τ sig) → Buf (Elt Ideal) ℓ) (ρ : Dev nD → PrngReg)

/-! ## The blocks at their literal types -/

abbrev xblk (hO : Ok m) (c : Dev nD) (t : Fin (cfgM m hO).N) : Vec Ideal S1x1024x512 .f32 := iblk m hO c 0 t
abbrev wblk (hO : Ok m) (c : Dev nD) (t : Fin (cfgM m hO).N) : Vec Ideal S1x512x512 .f32 := iblk m hO c 1 t
abbrev bblk (hO : Ok m) (c : Dev nD) (t : Fin (cfgM m hO).N) : Vec Ideal S1x1x512 .f32 := iblk m hO c 2 t

/-- The block point t leaves in the output's staging buffer is the body's value of the three input blocks. -/
theorem outs_eq (hO : Ok m) (c : Dev nD) (t : Fin (cfgM m hO).N) :
    outsAt0 m hO c t = k0_pay1 (xblk m hO c t) (wblk m hO c t) (bblk m hO c t) := by
  unfold outsAt0
  exact out_eq (F := Ideal) c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0)

/-- The bias as the region finds it: the [24, 512] argument laid out as [24, 1, 512]. -/
theorem bias3_apply (c : Dev nD) (d : Fin 24) (z : Fin 1) (e : Fin 512) :
    (V m c main_v0 : S24x1x512.Idx → EReal) (ix3 d z e) = m ((c : Thread nD τ).loc main_arg3) (ix2 d e) := by
  have e0 : (V m c main_v0 : S24x1x512.Idx → EReal) = shapeCast S24x1x512 (m ((c : Thread nD τ).loc main_arg3)) Facts₀.shapeCasts_S24x512_S24x1x512 := by
    dsimp only [Gen.V, Gen.hostOps0]
    after_results
    rfl
  refine (congrFun e0 (ix3 d z e)).trans ?_
  refine shapeCast_apply _ _ (ix3 d z e) (ix2 d e) ?_
  rw [Shape.rowMajor_val_two, Shape.rowMajor_val_three]
  show d.val * 512 + e.val = (d.val * 1 + z.val) * 512 + e.val
  have := z.isLt
  omega

/-! ## The input blocks read at an index -/

/-- The rows block of point t is sample t's rows. -/
theorem xblk_apply (hO : Ok m) (c : Dev nD) (t : Fin (cfgM m hO).N) (z : Fin 1) (r : Fin 1024) (k : Fin 512) :
    xblk m hO c t (ix3 z r k) = m ((c : Thread nD τ).loc main_arg0) (ix3 (smp (grid0.coords t)) r k) := by
  have hi : ((cfgM m hO).win 0).index t = ![(grid0.coords t 0).val, 0, 0] := map0 (grid0.coords t)
  show V m c main_arg0 ((((cfgM m hO).win 0).blk t).view.emb (ix3 z r k)) = _
  rw [V_main_arg0]
  refine congrArg (m ((c : Thread nD τ).loc main_arg0)) (funext fun a => Fin.ext ?_)
  have hz := z.isLt
  match a with
  | ⟨0, _⟩ =>
    show ((cfgM m hO).win 0).index t (0 : Fin 3) * 1 + 1 * z.val = (grid0.coords t 0).val
    rw [hi]; show (grid0.coords t 0).val * 1 + 1 * z.val = _; omega
  | ⟨1, _⟩ =>
    show ((cfgM m hO).win 0).index t (1 : Fin 3) * 1024 + 1 * r.val = r.val
    rw [hi]; show 0 * 1024 + 1 * r.val = r.val; omega
  | ⟨2, _⟩ =>
    show ((cfgM m hO).win 0).index t (2 : Fin 3) * 512 + 1 * k.val = k.val
    rw [hi]; show 0 * 512 + 1 * k.val = k.val; omega

/-- The weights block of point t is the matrix of sample t's day. -/
theorem wblk_apply (hd : ∀ p : Fin 64, IsDay (tbl m 0 (ix1 p))) (hO : Ok m) (c : Dev nD) (t : Fin (cfgM m hO).N)
    (z : Fin 1) (k e : Fin 512) :
    wblk m hO c t (ix3 z k e) = m ((c : Thread nD τ).loc main_arg2) (ix3 (day (tbl m 0) (smp (grid0.coords t))) k e) := by
  have hi : ((cfgM m hO).win 1).index t = ![(tbl m 0 (ix1 (smp (grid0.coords t)))).toNat, 0, 0] := map1 (tbl m) (grid0.coords t)
  have hv := day_val (tbl m 0) (hd (smp (grid0.coords t)))
  show V m c main_arg2 ((((cfgM m hO).win 1).blk t).view.emb (ix3 z k e)) = _
  rw [V_main_arg2]
  refine congrArg (m ((c : Thread nD τ).loc main_arg2)) (funext fun a => Fin.ext ?_)
  have hz := z.isLt
  match a with
  | ⟨0, _⟩ =>
    show ((cfgM m hO).win 1).index t (0 : Fin 3) * 1 + 1 * z.val = (day (tbl m 0) (smp (grid0.coords t))).val
    rw [hi, hv]; show (tbl m 0 (ix1 (smp (grid0.coords t)))).toNat * 1 + 1 * z.val = _; omega
  | ⟨1, _⟩ =>
    show ((cfgM m hO).win 1).index t (1 : Fin 3) * 512 + 1 * k.val = k.val
    rw [hi]; show 0 * 512 + 1 * k.val = k.val; omega
  | ⟨2, _⟩ =>
    show ((cfgM m hO).win 1).index t (2 : Fin 3) * 512 + 1 * e.val = e.val
    rw [hi]; show 0 * 512 + 1 * e.val = e.val; omega

/-- The bias block of point t is the bias row of sample t's day. -/
theorem bblk_apply (hd : ∀ p : Fin 64, IsDay (tbl m 0 (ix1 p))) (hO : Ok m) (c : Dev nD) (t : Fin (cfgM m hO).N)
    (z z' : Fin 1) (e : Fin 512) :
    bblk m hO c t (ix3 z z' e) = m ((c : Thread nD τ).loc main_arg3) (ix2 (day (tbl m 0) (smp (grid0.coords t))) e) := by
  have hi : ((cfgM m hO).win 2).index t = ![(tbl m 0 (ix1 (smp (grid0.coords t)))).toNat, 0, 0] := map2 (tbl m) (grid0.coords t)
  have hv := day_val (tbl m 0) (hd (smp (grid0.coords t)))
  have hz := z.isLt
  have hz' := z'.isLt
  have hemb : (((cfgM m hO).win 2).blk t).view.emb (ix3 z z' e) = ix3 (day (tbl m 0) (smp (grid0.coords t))) (0 : Fin 1) e :=
    funext fun a => Fin.ext (by
      match a with
      | ⟨0, _⟩ =>
        show ((cfgM m hO).win 2).index t (0 : Fin 3) * 1 + 1 * z.val = (day (tbl m 0) (smp (grid0.coords t))).val
        rw [hi, hv]; show (tbl m 0 (ix1 (smp (grid0.coords t)))).toNat * 1 + 1 * z.val = _; omega
      | ⟨1, _⟩ =>
        show ((cfgM m hO).win 2).index t (1 : Fin 3) * 1 + 1 * z'.val = 0
        rw [hi]; show 0 * 1 + 1 * z'.val = 0; omega
      | ⟨2, _⟩ =>
        show ((cfgM m hO).win 2).index t (2 : Fin 3) * 512 + 1 * e.val = e.val
        rw [hi]; show 0 * 512 + 1 * e.val = e.val; omega)
  show (V m c main_v0 : S24x1x512.Idx → EReal) ((((cfgM m hO).win 2).blk t).view.emb (ix3 z z' e)) = _
  rw [hemb]
  exact bias3_apply m c _ _ e

/-! ## From the blocks to the array -/

/-- What the result array is shown to hold: `result` of the argument arrays, the ids as the region's table. -/
abbrev G (c : Dev nD) : S64x1024x512.Idx → EReal :=
  result (m ((c : Thread nD τ).loc main_arg0)) (tbl m 0) (m ((c : Thread nD τ).loc main_arg2)) (m ((c : Thread nD τ).loc main_arg3))

/-- Index (z, r, e) of point t's output block is index (t, r, e) of the result array. -/
theorem oblk_emb (hO : Ok m) (t : Fin (cfgM m hO).N) (z : Fin 1) (r : Fin 1024) (e : Fin 512) :
    (((cfgM m hO).win 3).blk t).view.emb (ix3 z r e) = ix3 (smp (grid0.coords t)) r e := by
  have hi : ((cfgM m hO).win 3).index t = ![(grid0.coords t 0).val, 0, 0] := map3 (grid0.coords t)
  have hz := z.isLt
  refine funext fun a => Fin.ext ?_
  match a with
  | ⟨0, _⟩ =>
    show ((cfgM m hO).win 3).index t (0 : Fin 3) * 1 + 1 * z.val = (grid0.coords t 0).val
    rw [hi]; show (grid0.coords t 0).val * 1 + 1 * z.val = _; omega
  | ⟨1, _⟩ =>
    show ((cfgM m hO).win 3).index t (1 : Fin 3) * 1024 + 1 * r.val = r.val
    rw [hi]; show 0 * 1024 + 1 * r.val = r.val; omega
  | ⟨2, _⟩ =>
    show ((cfgM m hO).win 3).index t (2 : Fin 3) * 512 + 1 * e.val = e.val
    rw [hi]; show 0 * 512 + 1 * e.val = e.val; omega

/-- WHAT POINT t WRITES BACK is block t of `result`. -/
theorem flushed_eq (hd : ∀ p : Fin 64, IsDay (tbl m 0 (ix1 p))) (hO : Ok m) (c : Dev nD) (t : Fin (cfgM m hO).N) :
    (dats m hO 0 c).flushed 3 t = (((cfgM m hO).win 3).blk t).view.read (Elt Ideal) (G m c) := by
  show ((cfgM m hO).win 3).cut (grid0.coords t) ((dats m hO 0 c).after 3 t) = _
  rw [after0_3, outs_eq]
  refine funext fun (y : S1x1024x512.Idx) => ?_
  obtain ⟨z, r, e, rfl⟩ : ∃ (z : Fin 1) (r : Fin 1024) (e : Fin 512), y = ix3 z r e := ⟨y 0, y 1, y 2, eq_ix3 y⟩
  show k0_pay1 (xblk m hO c t) (wblk m hO c t) (bblk m hO c t) (ix3 z r e)
    = G m c ((((cfgM m hO).win 3).blk t).view.emb (ix3 z r e))
  rw [oblk_emb]
  refine (pay_apply (xblk m hO c t) (wblk m hO c t) (bblk m hO c t) z r e).trans ?_
  show _ = softsign (affine _ _ _ _ (smp (grid0.coords t)) r e)
  exact congrArg softsign (congrArg₂ (· + ·)
    (Finset.sum_congr rfl fun k _ => congrArg₂ (· * ·) (xblk_apply m hO c t 0 r k) (wblk_apply m hd hO c t 0 k e))
    (bblk_apply m hd hO c t 0 0 e))

/-- Point t of the one-axis grid has coordinate t. -/
theorem coords_val : ∀ t : Fin grid0.N, (grid0.coords t 0).val = t.val := by decide +kernel

/-- Every index (p, r, e) of the result array is index (0, r, e) of sample p's block. -/
theorem cover (hO : Ok m) (i : S64x1024x512.Idx) :
    ∃ t : Fin (cfgM m hO).N, ((cfgM m hO).win 3).flush t = true ∧ i ∈ (((cfgM m hO).win 3).blk t).view.set := by
  have h0 : (i 0).val < grid0.N := by rw [N_0]; exact (i 0).isLt
  refine ⟨⟨(i 0).val, h0⟩, flush0_3 (adm m hO) _, ?_⟩
  have he := oblk_emb m hO ⟨(i 0).val, h0⟩ 0 (i 1) (i 2)
  have hs : smp (grid0.coords ⟨(i 0).val, h0⟩) = i 0 := Fin.ext (coords_val ⟨(i 0).val, h0⟩)
  rw [hs] at he
  have he' : (((cfgM m hO).win 3).blk ⟨(i 0).val, h0⟩).view.emb (ix3 (0 : Fin 1) (i 1) (i 2)) = i := he.trans (eq_ix3 i).symm
  have hm : (((cfgM m hO).win 3).blk ⟨(i 0).val, h0⟩).view.emb (ix3 (0 : Fin 1) (i 1) (i 2))
      ∈ (((cfgM m hO).win 3).blk ⟨(i 0).val, h0⟩).view.set := Finset.mem_map_of_mem _ (Finset.mem_univ _)
  rw [he'] at hm
  exact hm

/-- THE RESULT ARRAY after the run holds `result`. -/
theorem final (hd : ∀ p : Fin 64, IsDay (tbl m 0 (ix1 p))) (hO : Ok m) (c : Dev nD) :
    (dats m hO 0 c).arrAt 3 (cfgM m hO).N = G m c :=
  (dats m hO 0 c).arrAt_eq_of_cover 3 (G m c) (fun t _ => flushed_eq m hd hO c t) (cover m hO)

/-- The region's table is the day-id argument on every device. -/
theorem tbl_dev (c : Dev nD) : tbl m 0 = m ((c : Thread nD τ).loc main_arg1) :=
  ((V_pre m c 0).symm.trans (V_main_arg1 m c))

/-- THE KERNEL'S RUN with its result named: under the precondition every weakly fair execution ends with the result
    array at `result` of the argument arrays, and the arguments as launched. -/
theorem run [Cert.Pre_finite_inputs.Facts] (h : Cert.Pre_KernelIdeal m) :
    θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  have hO := ok_of_pre m h
  have hd := days_of_pre_tbl m h
  refine (θ_run defs _ _).mono (fun _ hq c => ?_) (run_main m ρ hO)
  refine ⟨(((hq c).1 3).trans (final m hd hO c)).trans ?_,
    ((hq c).1 0).trans (((dats m hO 0 c).arrAt_in 0 rfl _).trans ((A_eq m hO c 0).trans (V_main_arg0 m c))),
    ((hq c).2 main_arg1 (by decide : main_arg1 ∈ Pipeline.restRefs sig spec0)).trans (V_main_arg1 m c),
    ((hq c).1 1).trans (((dats m hO 0 c).arrAt_in 1 rfl _).trans ((A_eq m hO c 1).trans (V_main_arg2 m c))),
    ((hq c).2 main_arg3 (by decide : main_arg3 ∈ Pipeline.restRefs sig spec0)).trans (V_main_arg3 m c)⟩
  show result _ (tbl m 0) _ _ = _
  rw [tbl_dev m c]

end Cert.KernelIdeal.DayValue

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.LibRows3.lean ====
/-
  Rows of a rank-3 array taken at an index vector, and rows added into a rank-3 array at an index vector, read at
  one index.

  Two host operations over an operand of shape [n, a, b], a column of integer words of shape [e, 1], and an array
  of shape [e, a, b]:

  • the gather with offset axes [1, 2], collapsed slice axis 0, start index map [0], index vector axis 1 and slice
    sizes [1, a, b] — what x[src] of a rank-3 x at an index vector src lowers to. Its element (p, q, r) is the
    operand's element (k, q, r), where k is the word idx[p, 0] read as a signed integer and clamped into
    [0, n − 1] (rowGather3_apply);

  • the scatter with update window axes [1, 2], inserted window axis 0, scatter-dims-to-operand-dims [0] and index
    vector axis 1, whose body adds — what segment_sum of a rank-3 array lowers to. Over the extended reals the
    result's element (r, q, s) is the operand's plus the sum, over all p, of upd[p, q, s] where idx[p, 0] = r
    (read signed, not clamped) and of 0 elsewhere (rowScatterAdd3_apply).

  Everything is symbolic in the extents and the word width; no index set is enumerated.
-/
import Idealize.ShloMosaic.PureOps.Ideal
import Idealize.ShloMosaic.Lib.ValueIdx

noncomputable section

open scoped BigOperators

namespace Cert.LibRows3

open Idealize.ShloMosaic Idealize.ShloMosaic.ValueIdx

section RowGather3
variable {α : Type}

/-- The dimension numbers of "rows of an [n, a, b] operand at an [e, 1] column of start indices". -/
abbrev rowGatherDims3 (n e a b : Nat)
    (wf : GatherDims.WF ⟨3, ![n, a, b]⟩ ⟨2, ![e, 1]⟩ ⟨3, ![e, a, b]⟩ [1, 2] [0] [] [0] [] 1 ![1, a, b]) :
    GatherDims ⟨3, ![n, a, b]⟩ ⟨2, ![e, 1]⟩ ⟨3, ![e, a, b]⟩ where
  offsetDims := [1, 2]
  collapsedSliceDims := [0]
  operandBatchingDims := []
  startIndicesBatchingDims := []
  startIndexMap := [0]
  indexVectorDim := 1
  sliceSizes := ![1, a, b]
  wf := wf

/-- THE RANK-3 ROW GATHER READ AT (p, q, r): the operand at row idx[p, 0] — read signed and clamped into
    [0, n − 1] — and the same (q, r). -/
theorem rowGather3_apply {n e a b w : Nat} (hn : 0 < n)
    (wf : GatherDims.WF ⟨3, ![n, a, b]⟩ ⟨2, ![e, 1]⟩ ⟨3, ![e, a, b]⟩ [1, 2] [0] [] [0] [] 1 ![1, a, b])
    (x : (⟨3, ![n, a, b]⟩ : Shape).Idx → α) (idx : IVec ⟨2, ![e, 1]⟩ w) (p : Fin e) (q : Fin a) (r : Fin b) :
    Host.gather (rowGatherDims3 n e a b wf) x idx (ix3 p q r)
      = x (ix3 ⟨min (idx (ix2 p (0 : Fin 1))).toInt.toNat (n - 1), by omega⟩ q r) := by
  unfold Host.gather
  congr 1
  funext c
  refine Fin.ext ?_
  match c with
  | ⟨0, _⟩ =>
    -- the row axis: collapsed (no offset), not batching, named by the start index map
    show (rowGatherDims3 n e a b wf).start (ix3 p q r) idx 0 + (rowGatherDims3 n e a b wf).batchCoord (ix3 p q r) 0
        + (rowGatherDims3 n e a b wf).offCoord (ix3 p q r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowGatherDims3 n e a b wf).startIndexMap from List.mem_singleton.mpr rfl)]
    have hsi : (rowGatherDims3 n e a b wf).siIdx (ix3 p q r) ⟨List.idxOf (0 : Fin 3) (rowGatherDims3 n e a b wf).startIndexMap,
        List.idxOf_lt_length_iff.2 (List.mem_singleton.mpr rfl)⟩ = ix2 p (0 : Fin 1) := by
      funext d; refine Fin.ext ?_
      match d with
      | ⟨0, _⟩ => rfl
      | ⟨1, _⟩ => rfl
    rw [hsi]
    rfl
  | ⟨1, _⟩ =>
    -- the first window axis: not named by the start index map (start 0), not batching, the result's first offset axis
    show (rowGatherDims3 n e a b wf).start (ix3 p q r) idx 1 + (rowGatherDims3 n e a b wf).batchCoord (ix3 p q r) 1
        + (rowGatherDims3 n e a b wf).offCoord (ix3 p q r) 1 = _
    rw [GatherDims.batchCoord_eq_zero _ _ _ List.not_mem_nil]
    have hst : (rowGatherDims3 n e a b wf).start (ix3 p q r) idx 1 = 0 := by
      unfold GatherDims.start
      rw [dif_neg (show (1 : Fin 3) ∉ ([0] : List (Fin 3)) by decide)]
    rw [hst]
    simp only [Nat.add_zero, Nat.zero_add]
    rfl
  | ⟨2, _⟩ =>
    -- the second window axis: likewise, the result's second offset axis
    show (rowGatherDims3 n e a b wf).start (ix3 p q r) idx 2 + (rowGatherDims3 n e a b wf).batchCoord (ix3 p q r) 2
        + (rowGatherDims3 n e a b wf).offCoord (ix3 p q r) 2 = _
    rw [GatherDims.batchCoord_eq_zero _ _ _ List.not_mem_nil]
    have hst : (rowGatherDims3 n e a b wf).start (ix3 p q r) idx 2 = 0 := by
      unfold GatherDims.start
      rw [dif_neg (show (2 : Fin 3) ∉ ([0] : List (Fin 3)) by decide)]
    rw [hst]
    simp only [Nat.add_zero, Nat.zero_add]
    rfl

end RowGather3

section RowScatter3

/-- The dimension numbers of "rows of [e, a, b] updates added into an [n, a, b] operand at an [e, 1] column of
    scatter indices". -/
abbrev rowScatterDims3 (n e a b : Nat)
    (wf : ScatterDims.WF ⟨3, ![n, a, b]⟩ ⟨2, ![e, 1]⟩ ⟨3, ![e, a, b]⟩ [1, 2] [0] [0] 1) :
    ScatterDims ⟨3, ![n, a, b]⟩ ⟨2, ![e, 1]⟩ ⟨3, ![e, a, b]⟩ where
  updateWindowDims := [1, 2]
  insertedWindowDims := [0]
  scatterDimsToOperandDims := [0]
  indexVectorDim := 1
  wf := wf

/-- An axis is kept by a list of axes exactly when it is not in the list. -/
theorem mem_kept3 {s : Shape} (axes : List (Fin s.rank)) (c : Fin s.rank) : c ∈ s.kept axes ↔ c ∉ axes := by
  simp [Shape.kept, List.mem_filter, List.mem_finRange]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ c0 : Fin n0, ∑ c1 : Fin n1, ∑ c2 : Fin n2, f (ix3 c0 c1 c2) := by
  rw [← Equiv.sum_comp (idxEquiv3 (n0 := n0) (n1 := n1) (n2 := n2)).symm f, Fintype.sum_prod_type]
  refine Finset.sum_congr rfl fun c0 _ => ?_
  rw [Fintype.sum_prod_type]
  rfl

variable {n e a b w : Nat} (wf : ScatterDims.WF ⟨3, ![n, a, b]⟩ ⟨2, ![e, 1]⟩ ⟨3, ![e, a, b]⟩ [1, 2] [0] [0] 1)

/-- On the row axis the window of update (p, q, s) starts at the word idx[p, 0], read signed … -/
theorem rowScatter3_start_row (idx : IVec ⟨2, ![e, 1]⟩ w) (p : Fin e) (q : Fin a) (s : Fin b) :
    (rowScatterDims3 n e a b wf).start (ix3 p q s) idx 0 = (idx (ix2 p (0 : Fin 1))).toInt := by
  unfold ScatterDims.start
  rw [dif_pos (show (0 : Fin 3) ∈ ([0] : List (Fin 3)) from List.mem_singleton.mpr rfl)]
  have hsi : (rowScatterDims3 n e a b wf).siIdx (ix3 p q s) ⟨List.idxOf (0 : Fin 3) (rowScatterDims3 n e a b wf).scatterDimsToOperandDims,
      List.idxOf_lt_length_iff.2 (List.mem_singleton.mpr rfl)⟩ = ix2 p (0 : Fin 1) := by
    funext d; refine Fin.ext ?_
    match d with
    | ⟨0, _⟩ => rfl
    | ⟨1, _⟩ => rfl
  rw [hsi]

/-- … and on the two window axes, which no scatter index names, at 0. -/
theorem rowScatter3_start_one (idx : IVec ⟨2, ![e, 1]⟩ w) (p : Fin e) (q : Fin a) (s : Fin b) :
    (rowScatterDims3 n e a b wf).start (ix3 p q s) idx 1 = 0 := by
  unfold ScatterDims.start
  rw [dif_neg (show (1 : Fin 3) ∉ ([0] : List (Fin 3)) by decide)]

theorem rowScatter3_start_two (idx : IVec ⟨2, ![e, 1]⟩ w) (p : Fin e) (q : Fin a) (s : Fin b) :
    (rowScatterDims3 n e a b wf).start (ix3 p q s) idx 2 = 0 := by
  unfold ScatterDims.start
  rw [dif_neg (show (2 : Fin 3) ∉ ([0] : List (Fin 3)) by decide)]

/-- The row axis is inserted: no window coordinate. -/
theorem rowScatter3_window_row (p : Fin e) (q : Fin a) (s : Fin b) : (rowScatterDims3 n e a b wf).window (ix3 p q s) 0 = 0 := by
  unfold ScatterDims.window
  rw [dif_neg (fun h => (mem_kept3 (s := ⟨3, ![n, a, b]⟩) [0] 0).mp h (List.mem_singleton.mpr rfl))]

/-- The first window axis carries the update's second coordinate … -/
theorem rowScatter3_window_one (p : Fin e) (q : Fin a) (s : Fin b) : (rowScatterDims3 n e a b wf).window (ix3 p q s) 1 = q.val := by
  unfold ScatterDims.window
  rw [dif_pos ((mem_kept3 (s := ⟨3, ![n, a, b]⟩) [0] 1).mpr (show (1 : Fin 3) ∉ ([0] : List (Fin 3)) by decide))]
  rfl

/-- … and the second window axis its third. -/
theorem rowScatter3_window_two (p : Fin e) (q : Fin a) (s : Fin b) : (rowScatterDims3 n e a b wf).window (ix3 p q s) 2 = s.val := by
  unfold ScatterDims.window
  rw [dif_pos ((mem_kept3 (s := ⟨3, ![n, a, b]⟩) [0] 2).mpr (show (2 : Fin 3) ∉ ([0] : List (Fin 3)) by decide))]
  rfl

/-- WHERE UPDATE (p, q, s) LANDS: on the operand's element (r, q', s') exactly when the word idx[p, 0], read
    signed, is r, and the window coordinates agree. (An index below 0 or from n on lands nowhere.) -/
theorem rowScatter3_resultIdx (idx : IVec ⟨2, ![e, 1]⟩ w) (p : Fin e) (q : Fin a) (s : Fin b) (r : Fin n)
    (q' : Fin a) (s' : Fin b) :
    (rowScatterDims3 n e a b wf).resultIdx? (ix3 p q s) idx = some (ix3 r q' s')
      ↔ ((idx (ix2 p (0 : Fin 1))).toInt = (r.val : Int) ∧ q = q' ∧ s = s') := by
  have h0 := rowScatter3_start_row wf idx p q s
  have h1 := rowScatter3_start_one wf idx p q s
  have h2 := rowScatter3_start_two wf idx p q s
  have w0 := rowScatter3_window_row wf p q s
  have w1 := rowScatter3_window_one wf p q s
  have w2 := rowScatter3_window_two wf p q s
  unfold ScatterDims.resultIdx?
  constructor
  · intro h
    split at h
    · rename_i hb
      have hf := Option.some.inj h
      have e0 := congrArg (fun f => (f 0).val) hf
      have e1 := congrArg (fun f => (f 1).val) hf
      have e2 := congrArg (fun f => (f 2).val) hf
      have b0 := (hb 0).1
      simp only [h0, w0, h1, w1, h2, w2] at e0 e1 e2 b0
      change ((idx (ix2 p (0 : Fin 1))).toInt + ((0 : Nat) : Int)).toNat = r.val at e0
      change ((0 : Int) + (q.val : Int)).toNat = q'.val at e1
      change ((0 : Int) + (s.val : Int)).toNat = s'.val at e2
      refine ⟨by omega, Fin.ext (by omega), Fin.ext (by omega)⟩
    · exact absurd h (by simp)
  · rintro ⟨hr, rfl, rfl⟩
    have hb : ∀ c, 0 ≤ (rowScatterDims3 n e a b wf).start (ix3 p q s) idx c + ((rowScatterDims3 n e a b wf).window (ix3 p q s) c : Int)
        ∧ (rowScatterDims3 n e a b wf).start (ix3 p q s) idx c + ((rowScatterDims3 n e a b wf).window (ix3 p q s) c : Int)
          < ((⟨3, ![n, a, b]⟩ : Shape).size c : Int) := by
      intro c
      match c with
      | ⟨0, _⟩ =>
        show 0 ≤ (rowScatterDims3 n e a b wf).start (ix3 p q s) idx 0 + ((rowScatterDims3 n e a b wf).window (ix3 p q s) 0 : Int)
          ∧ (rowScatterDims3 n e a b wf).start (ix3 p q s) idx 0 + ((rowScatterDims3 n e a b wf).window (ix3 p q s) 0 : Int) < (n : Int)
        rw [h0, w0, hr]
        have := r.isLt
        omega
      | ⟨1, _⟩ =>
        show 0 ≤ (rowScatterDims3 n e a b wf).start (ix3 p q s) idx 1 + ((rowScatterDims3 n e a b wf).window (ix3 p q s) 1 : Int)
          ∧ (rowScatterDims3 n e a b wf).start (ix3 p q s) idx 1 + ((rowScatterDims3 n e a b wf).window (ix3 p q s) 1 : Int) < (a : Int)
        rw [h1, w1]
        have := q.isLt
        omega
      | ⟨2, _⟩ =>
        show 0 ≤ (rowScatterDims3 n e a b wf).start (ix3 p q s) idx 2 + ((rowScatterDims3 n e a b wf).window (ix3 p q s) 2 : Int)
          ∧ (rowScatterDims3 n e a b wf).start (ix3 p q s) idx 2 + ((rowScatterDims3 n e a b wf).window (ix3 p q s) 2 : Int) < (b : Int)
        rw [h2, w2]
        have := s.isLt
        omega
    rw [dif_pos hb]
    congr 1
    funext c
    refine Fin.ext ?_
    match c with
    | ⟨0, _⟩ =>
      show ((rowScatterDims3 n e a b wf).start (ix3 p q s) idx 0 + ((rowScatterDims3 n e a b wf).window (ix3 p q s) 0 : Int)).toNat = r.val
      rw [h0, w0, hr]; omega
    | ⟨1, _⟩ =>
      show ((rowScatterDims3 n e a b wf).start (ix3 p q s) idx 1 + ((rowScatterDims3 n e a b wf).window (ix3 p q s) 1 : Int)).toNat = q.val
      rw [h1, w1]; omega
    | ⟨2, _⟩ =>
      show ((rowScatterDims3 n e a b wf).start (ix3 p q s) idx 2 + ((rowScatterDims3 n e a b wf).window (ix3 p q s) 2 : Int)).toNat = s.val
      rw [h2, w2]; omega

/-- THE RANK-3 ROW SCATTER-ADD READ AT (r, q, s), over the extended reals: the operand's element plus the sum over
    all update rows p of upd[p, q, s] where idx[p, 0] = r (read signed), of 0 elsewhere. -/
theorem rowScatterAdd3_apply (x : (⟨3, ![n, a, b]⟩ : Shape).Idx → EReal) (idx : IVec ⟨2, ![e, 1]⟩ w)
    (upd : (⟨3, ![e, a, b]⟩ : Shape).Idx → EReal) (r : Fin n) (q : Fin a) (s : Fin b) :
    Host.scatterAdd (F := Ideal) (φ := .f32) (rowScatterDims3 n e a b wf) x idx upd (ix3 r q s)
      = x (ix3 r q s) + ∑ p : Fin e, if (idx (ix2 p (0 : Fin 1))).toInt = (r.val : Int) then upd (ix3 p q s) else 0 := by
  show x (ix3 r q s) + ∑ j ∈ Finset.univ.filter (fun j => (rowScatterDims3 n e a b wf).resultIdx? j idx = some (ix3 r q s)), upd j = _
  congr 1
  rw [Finset.sum_filter, sum_idx3]
  refine Finset.sum_congr rfl fun p _ => ?_
  simp only [rowScatter3_resultIdx]
  by_cases hp : (idx (ix2 p (0 : Fin 1))).toInt = (r.val : Int)
  · simp only [hp, true_and, if_true]
    rw [Finset.sum_eq_single q (fun c1 _ hc => ?_) (fun h => absurd (Finset.mem_univ _) h)]
    · rw [Finset.sum_eq_single s (fun c2 _ hc => ?_) (fun h => absurd (Finset.mem_univ _) h)]
      · simp
      · simp [hc]
    · simp [hc]
  · simp only [hp, false_and, if_false, Finset.sum_const_zero]

end RowScatter3

end Cert.LibRows3

end
-- ==== Proof.RefValue.lean ====
/-
  The reference, index by index. It takes each sample's weight matrix and bias row by a gather at the day id (a
  negative id first wrapped by +24, the start index then clamped into [0, 23]), contracts the sample's rows against
  its matrix, adds the bias along the rows, and applies y / (1 + |y|). When every id names a day the wrap is not
  taken and the clamp leaves the id, so the gathered matrix of sample p is W(d(p)) and its bias row b(d(p)); the
  contraction is the sum over the 512 features. That is the function `result`.
-/
import proofs.«430786_j71622874628159_1_alg».proof.Proof.Gen.ReferenceIdeal.Read
import proofs.«430786_j71622874628159_1_alg».proof.Proof.DaySpec
import proofs.«430786_j71622874628159_1_alg».proof.Proof.LibRows
import proofs.«430786_j71622874628159_1_alg».proof.Proof.LibRows3

noncomputable section

open scoped BigOperators

namespace Cert.ReferenceIdeal.RefValue

open Cert.ReferenceIdeal Cert.ReferenceIdeal.Gen Cert.ReferenceIdeal.Read Cert.DayAdapter
open Idealize.ShloMosaic Idealize.ShloMosaic.ValueIdx

variable (x0 : (⟨S64x1024x512, .f32⟩ : BufTy).Contents (Elt Ideal)) (x1 : (⟨S64, .i32⟩ : BufTy).Contents (Elt Ideal))
  (x2 : (⟨S24x512x512, .f32⟩ : BufTy).Contents (Elt Ideal)) (x3 : (⟨S24x512, .f32⟩ : BufTy).Contents (Elt Ideal))

/-- The start index the first gather reads for sample p is the id word itself: the wrap is not taken. -/
theorem start_word_w (hd : ∀ p : Fin 64, IsDay (x1 (ix1 p))) (p : Fin 64) :
    val_main_v5 (F := Ideal) x1 (ix2 p (0 : Fin 1)) = x1 (ix1 p) := by
  have hi : idx_main_v5 (ix2 p (0 : Fin 1)) = ix1 p := funext fun a => by match a with | ⟨0, _⟩ => rfl
  rw [val_main_v5_apply, val_main_v4_apply, val_main_v1_apply, val_main_v0_apply, val_main_c_apply, hi]
  exact (hd p).wrap _

/-- Likewise for the second gather. -/
theorem start_word_b (hd : ∀ p : Fin 64, IsDay (x1 (ix1 p))) (p : Fin 64) :
    val_main_v12 (F := Ideal) x1 (ix2 p (0 : Fin 1)) = x1 (ix1 p) := by
  have hi : idx_main_v12 (ix2 p (0 : Fin 1)) = ix1 p := funext fun a => by match a with | ⟨0, _⟩ => rfl
  rw [val_main_v12_apply, val_main_v11_apply, val_main_v8_apply, val_main_v7_apply, val_main_c_1_apply, hi]
  exact (hd p).wrap _

/-- The gathered weights of sample p are its day's matrix. -/
theorem weights_row (hd : ∀ p : Fin 64, IsDay (x1 (ix1 p))) (p : Fin 64) (k e : Fin 512) :
    val_main_v6 (F := Ideal) x1 x2 (ix3 p k e) = x2 (ix3 (day x1 p) k e) := by
  unfold val_main_v6
  refine (Cert.LibRows3.rowGather3_apply (n := 24) (e := 64) (a := 512) (b := 512) (by decide)
    Facts₀.gather_S24x512x512_S64x1_S64x512x512_12_0_n_n_0_1_1512512_wf x2 (val_main_v5 (F := Ideal) x1) p k e).trans ?_
  refine congrArg (fun d : Fin 24 => x2 (ix3 d k e)) (Fin.ext ?_)
  show min (val_main_v5 (F := Ideal) x1 (ix2 p (0 : Fin 1))).toInt.toNat (24 - 1) = min (x1 (ix1 p)).toNat 23
  rw [start_word_w x1 hd p, (hd p).toInt_toNat]

/-- The gathered bias row of sample p is its day's row. -/
theorem bias_row (hd : ∀ p : Fin 64, IsDay (x1 (ix1 p))) (p : Fin 64) (e : Fin 512) :
    val_main_v13 (F := Ideal) x1 x3 (ix2 p e) = x3 (ix2 (day x1 p) e) := by
  unfold val_main_v13
  refine (Cert.LibRows.rowGather_apply (n := 24) (e := 64) (c := 512) (by decide)
    Facts₀.gather_S24x512_S64x1_S64x512_1_0_n_n_0_1_1512_wf x3 (val_main_v12 (F := Ideal) x1) p e).trans ?_
  refine congrArg (fun d : Fin 24 => x3 (ix2 d e)) (Fin.ext ?_)
  show min (val_main_v12 (F := Ideal) x1 (ix2 p (0 : Fin 1))).toInt.toNat (24 - 1) = min (x1 (ix1 p)).toNat 23
  rw [start_word_b x1 hd p, (hd p).toInt_toNat]

/-- THE REFERENCE'S LAST STAGE IS `result` when every id names a day. -/
theorem ref_eq (hd : ∀ p : Fin 64, IsDay (x1 (ix1 p))) :
    val_main_v21 (F := Ideal) x0 x1 x2 x3 = result x0 x1 x2 x3 := by
  funext j
  obtain ⟨p, r, e, rfl⟩ : ∃ (p : Fin 64) (r : Fin 1024) (e : Fin 512), j = ix3 p r e := ⟨j 0, j 1, j 2, eq_ix3 j⟩
  have hl : ∀ k : Fin 512, lidx_main_v15 (ix3 p r e) k = ix3 p r k := fun k => funext fun a => by
    match a with | ⟨0, _⟩ => rfl | ⟨1, _⟩ => rfl | ⟨2, _⟩ => rfl
  have hr : ∀ k : Fin 512, ridx_main_v15 (ix3 p r e) k = ix3 p k e := fun k => funext fun a => by
    match a with | ⟨0, _⟩ => rfl | ⟨1, _⟩ => rfl | ⟨2, _⟩ => rfl
  have hb : idx_main_v14 (idx_main_v16 (ix3 p r e)) = ix2 p e := funext fun a => by
    match a with | ⟨0, _⟩ => rfl | ⟨1, _⟩ => rfl
  rw [result_apply, val_main_v21_apply, val_main_v20_apply, val_main_v19_apply, val_main_cst_apply, val_main_v18_apply,
    val_main_v17_apply, val_main_v15_apply, val_main_v16_apply, val_main_v14_apply, hb, bias_row x1 x3 hd]
  simp only [hl, hr, weights_row x1 x2 hd]
  rfl

end Cert.ReferenceIdeal.RefValue

end
-- ==== Proof.lean ====
/-
  A day adapter against its reference, over the extended reals.

  Each of 64 samples carries a day id in [0, 24). The kernel walks the samples on a grid of 64 points; at point t it
  fetches sample t's [1024, 512] rows, and, through the table of ids, the [512, 512] weights and the bias row of the
  sample's day, multiplies rows by weights on the matrix unit into a zero accumulator, adds the bias down the rows,
  and writes y / (1 + |y|) into block t of the result. The reference gathers every sample's weights and bias at the
  ids, contracts, adds and applies the same y / (1 + |y|).

  The precondition says the floats are finite and every id, read signed, lies in [0, 24). The range is what the
  frames need: the weights' and the bias' blocks are addressed by the id read as an unsigned word, and lie inside
  their arrays exactly when that word is below 24. It is also what makes the reference's gather read row id: the
  negative-index wrap is not taken and the clamp into [0, 23] leaves the id. Finiteness is not used: both sides are
  the same sums, products and one quotient of the same entries, so no law that fails at an infinity is needed.

  Both programs end with the result array at ONE function of the four argument arrays,
      out(p, r, e) = softsign((sum over k of x(p, r, k) * W(d(p), k, e)) + b(d(p), e)),
  the kernel because its 64 blocks tile the array and block t holds the body's value of point t's input blocks, the
  reference index by index through its operations. No rewrite was applied in idealizing the kernel, so `preserves`
  has nothing to state.
-/
import proofs.«430786_j71622874628159_1_alg».proof.Defs
import proofs.«430786_j71622874628159_1_alg».proof.Proof.Gen.Kernel
import proofs.«430786_j71622874628159_1_alg».proof.Proof.Gen.Kernel.Skeleton
import proofs.«430786_j71622874628159_1_alg».proof.Proof.Gen.Kernel.Launch
import proofs.«430786_j71622874628159_1_alg».proof.Proof.Gen.Kernel.Points
import proofs.«430786_j71622874628159_1_alg».proof.Proof.Gen.Kernel.Frame
import proofs.«430786_j71622874628159_1_alg».proof.Proof.Gen.KernelIdeal
import proofs.«430786_j71622874628159_1_alg».proof.Proof.Gen.KernelIdeal.Skeleton
import proofs.«430786_j71622874628159_1_alg».proof.Proof.Gen.KernelIdeal.Launch
import proofs.«430786_j71622874628159_1_alg».proof.Proof.Gen.KernelIdeal.Points
import proofs.«430786_j71622874628159_1_alg».proof.Proof.Gen.KernelIdeal.Frame
import proofs.«430786_j71622874628159_1_alg».proof.Proof.Gen.ReferenceIdeal
import proofs.«430786_j71622874628159_1_alg».proof.Proof.Gen.ReferenceIdeal.Run
import proofs.«430786_j71622874628159_1_alg».proof.Proof.Gen.ReferenceIdeal.Read
import proofs.«430786_j71622874628159_1_alg».proof.Proof.Gen.Pre_finite_inputs
import proofs.«430786_j71622874628159_1_alg».proof.Proof.OkBits
import proofs.«430786_j71622874628159_1_alg».proof.Proof.OkIdeal
import proofs.«430786_j71622874628159_1_alg».proof.Proof.KernelValue
import proofs.«430786_j71622874628159_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the table-indexed blocks are in range under the precondition. -/
theorem frame_kernel : Cert.frame_Kernel := fun m ρ h => Cert.Kernel.Gen.frame m ρ (Cert.Kernel.Days.ok_of_pre m h)

/-- So does the kernel read over the extended reals. -/
theorem frame_kernelIdeal : Cert.frame_KernelIdeal := fun m ρ h => Cert.KernelIdeal.Gen.frame m ρ (Cert.KernelIdeal.Days.ok_of_pre m h)

/-- The reference is a straight line of host operations: it runs, and writes no argument. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten in idealizing it. -/
theorem preserves : Cert.preserves_Kernel_KernelIdeal := trivial

/-- From memories agreeing on the arguments both programs end with the result at the one function `result` of them:
    the kernel by its run read block by block, the reference by its run read operation by operation, every id a day. -/
theorem algebraic : Cert.algebraic_KernelIdeal_ReferenceIdeal := by
  intro m ρ m' ρ' hpre hagree
  refine ⟨fun c => Cert.DayAdapter.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.DayValue.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2]
  exact Cert.ReferenceIdeal.RefValue.ref_eq _ _ _ _ (fun p => Cert.DayAdapter.days_of_pre _ _ _ _ (hpre c) p)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
